-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S256x512 : Shape := ⟨2, ![256, 512]⟩
abbrev S711064 : Shape := ⟨1, ![711064]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S711064 : S_.BroadcastsInDim S711064 (![] : Fin 0 → Fin S711064.rank)
  reducesTo_S711064_S_d0 : S711064.ReducesTo [0] S_

variable [Facts]

def fn_part1 {F : FTy → Type} [FloatOps F] (main_arg2 : IVec S711064 32) (main_arg3 : IVec S711064 32) (main_v13 : IVec S_ 1) (main_v15 : IVec S711064 1) (main_c_5 : IVec S_ 1) : IVec S_ 1 :=
  let main_v16 : IVec S_ 1 := (fun x v => Host.reduce IntOp.andi x v reducesTo_S711064_S_d0 h_S_) main_v15 main_c_5
  let main_v17 : IVec S_ 1 := andi main_v13 main_v16
  let main_c_6 : IVec S_ 32 := constantI S_ 32 8704#32
  let main_v18 : IVec S711064 32 := broadcastInDim S711064 ![] bcast_S_S711064 main_c_6
  let main_v19 : IVec S711064 1 := cmpi .slt main_arg3 main_v18
  let main_c_7 : IVec S_ 1 := constantI S_ 1 1#1
  let main_v20 : IVec S_ 1 := (fun x v => Host.reduce IntOp.andi x v reducesTo_S711064_S_d0 h_S_) main_v19 main_c_7
  let main_v21 : IVec S_ 1 := andi main_v17 main_v20
  let main_c_8 : IVec S_ 32 := constantI S_ 32 0#32
  let main_v22 : IVec S711064 32 := broadcastInDim S711064 ![] bcast_S_S711064 main_c_8
  let main_v23 : IVec S711064 1 := cmpi .sge main_arg2 main_v22
  let main_c_9 : IVec S_ 1 := constantI S_ 1 1#1
  let main_v24 : IVec S_ 1 := (fun x v => Host.reduce IntOp.andi x v reducesTo_S711064_S_d0 h_S_) main_v23 main_c_9
  let main_v25 : IVec S_ 1 := andi main_v21 main_v24
  main_v25

def fn {F : FTy → Type} [FloatOps F] (main_arg0 : FVec F S256x8192 .f32) (main_arg1 : FVec F S256x512 .f32) (main_arg2 : IVec S711064 32) (main_arg3 : IVec S711064 32) (main_arg4 : FVec F S711064 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S711064 .f32 := Host.absf main_arg4
  let main_cst_2 : FVec F S_ .f32 := constant S_ .f32 0x7F800000#32
  let main_v10 : FVec F S711064 .f32 := broadcastInDim S711064 ![] bcast_S_S711064 main_cst_2
  let main_v11 : IVec S711064 1 := cmpf .olt main_v9 main_v10
  let main_c_3 : IVec S_ 1 := constantI S_ 1 1#1
  let main_v12 : IVec S_ 1 := (fun x v => Host.reduce IntOp.andi x v reducesTo_S711064_S_d0 h_S_) main_v11 main_c_3
  let main_v13 : IVec S_ 1 := andi main_v8 main_v12
  let main_c_4 : IVec S_ 32 := constantI S_ 32 0#32
  let main_v14 : IVec S711064 32 := broadcastInDim S711064 ![] bcast_S_S711064 main_c_4
  let main_v15 : IVec S711064 1 := cmpi .sge main_arg3 main_v14
  let main_c_5 : IVec S_ 1 := constantI S_ 1 1#1
  fn_part1 (F := F) main_arg2 main_arg3 main_v13 main_v15 main_c_5
-- ==== Kernel.lean ====
abbrev S256x8192 : Shape := ⟨2, ![256, 8192]⟩
abbrev S256x512 : Shape := ⟨2, ![256, 512]⟩
abbrev S711064 : Shape := ⟨1, ![711064]⟩
abbrev S256x8704 : Shape := ⟨2, ![256, 8704]⟩
abbrev S_ : Shape := ⟨0, ![]⟩
abbrev S8704x8320 : Shape := ⟨2, ![8704, 8320]⟩
abbrev S711064x1 : Shape := ⟨2, ![711064, 1]⟩
abbrev S711064x2 : Shape := ⟨2, ![711064, 2]⟩
abbrev S256x8320 : Shape := ⟨2, ![256, 8320]⟩
abbrev S8704x128 : Shape := ⟨2, ![8704, 128]⟩
abbrev S256x128 : Shape := ⟨2, ![256, 128]⟩
abbrev S256x64 : Shape := ⟨2, ![256, 64]⟩

abbrev nBuf : Space → Nat
  | .hbm => 35
  | .vmem => 5
  | .smem => 0
  | _ => 0

abbrev bufTy : (tb : Table) → Fin (tcTables nBuf tb) → BufTy
  | .hbm, ⟨0, _⟩ => ⟨S256x8192, .f32⟩
  | .hbm, ⟨1, _⟩ => ⟨S256x512, .f32⟩
  | .hbm, ⟨2, _⟩ => ⟨S711064, .i32⟩
  | .hbm, ⟨3, _⟩ => ⟨S711064, .i32⟩
  | .hbm, ⟨4, _⟩ => ⟨S711064, .f32⟩
  | .hbm, ⟨5, _⟩ => ⟨S256x8704, .f32⟩
  | .hbm, ⟨6, _⟩ => ⟨S_, .f32⟩
  | .hbm, ⟨7, _⟩ => ⟨S8704x8320, .f32⟩
  | .hbm, ⟨8, _⟩ => ⟨S_, .i32⟩
  | .hbm, ⟨9, _⟩ => ⟨S711064, .i32⟩
  | .hbm, ⟨10, _⟩ => ⟨S711064, .i1⟩
  | .hbm, ⟨11, _⟩ => ⟨S_, .i32⟩
  | .hbm, ⟨12, _⟩ => ⟨S711064, .i32⟩
  | .hbm, ⟨13, _⟩ => ⟨S711064, .i32⟩
  | .hbm, ⟨14, _⟩ => ⟨S711064, .i32⟩
  | .hbm, ⟨15, _⟩ => ⟨S_, .i32⟩
  | .hbm, ⟨16, _⟩ => ⟨S711064, .i32⟩
  | .hbm, ⟨17, _⟩ => ⟨S711064, .i1⟩
  | .hbm, ⟨18, _⟩ => ⟨S_, .i32⟩
  | .hbm, ⟨19, _⟩ => ⟨S711064, .i32⟩
  | .hbm, ⟨20, _⟩ => ⟨S711064, .i32⟩
  | .hbm, ⟨21, _⟩ => ⟨S711064, .i32⟩
  | .hbm, ⟨22, _⟩ => ⟨S711064x1, .i32⟩
  | .hbm, ⟨23, _⟩ => ⟨S711064x1, .i32⟩
  | .hbm, ⟨24, _⟩ => ⟨S711064x2, .i32⟩
  | .hbm, ⟨25, _⟩ => ⟨S8704x8320, .f32⟩
  | .hbm, ⟨26, _⟩ => ⟨S256x8320, .f32⟩
  | .hbm, ⟨27, _⟩ => ⟨S256x8192, .f32⟩
  | .hbm, ⟨28, _⟩ => ⟨S256x64, .f32⟩
  | .hbm, ⟨29, _⟩ => ⟨S_, .f32⟩
  | .hbm, ⟨30, _⟩ => ⟨S256x64, .f32⟩
  | .hbm, ⟨31, _⟩ => ⟨S256x64, .f32⟩
  | .hbm, ⟨32, _⟩ => ⟨S_, .f32⟩
  | .hbm, ⟨33, _⟩ => ⟨S256x64, .f32⟩
  | .hbm, ⟨34, _⟩ => ⟨S256x64, .f32⟩
  | .local _ .vmem, ⟨0, _⟩ => ⟨S256x8704, .f32⟩
  | .local _ .vmem, ⟨1, _⟩ => ⟨S8704x128, .f32⟩
  | .local _ .vmem, ⟨2, _⟩ => ⟨S8704x128, .f32⟩
  | .local _ .vmem, ⟨3, _⟩ => ⟨S256x128, .f32⟩
  | .local _ .vmem, ⟨4, _⟩ => ⟨S256x128, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8704x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S256x8192_S256x512_S256x8704_d1 : Shape.Concatenates [S256x8192, S256x512] S256x8704 1
  bcast_S_S8704x8320 : S_.BroadcastsInDim S8704x8320 (![] : Fin 0 → Fin S8704x8320.rank)
  bcast_S_S711064 : S_.BroadcastsInDim S711064 (![] : Fin 0 → Fin S711064.rank)
  bcast_S711064_S711064x1_0 : S711064.BroadcastsInDim S711064x1 (![0] : Fin 1 → Fin S711064x1.rank)
  concatenates_S711064x1_S711064x1_S711064x2_d1 : Shape.Concatenates [S711064x1, S711064x1] S711064x2 1
  inb_S256x8704_S256x8704_0_0 : ∀ a, (![0, 0] : Fin 2 → Nat) a + S256x8704.size a ≤ S256x8704.size a
  h_S256x8704 : 0 < S256x8704.numel
  shapeCasts_S256x8704_S256x8704 : S256x8704.ShapeCasts S256x8704
  bitsLt_bf16_f32 : FTy.bits .bf16 < FTy.bits .f32
  inb_S8704x128_S8704x128_0_0 : ∀ a, (![0, 0] : Fin 2 → Nat) a + S8704x128.size a ≤ S8704x128.size a
  h_S8704x128 : 0 < S8704x128.numel
  shapeCasts_S8704x128_S8704x128 : S8704x128.ShapeCasts S8704x128
  inb_S256x128_S256x128_0_0 : ∀ a, (![0, 0] : Fin 2 → Nat) a + S256x128.size a ≤ S256x128.size a
  h_S256x128 : 0 < S256x128.numel
  slices_S256x8320_S256x8192_0_0 : S256x8320.Slices ![0, 0] S256x8192
  slices_S256x8320_S256x64_0_8192 : S256x8320.Slices ![0, 8192] S256x64
  bcast_S_S256x64 : S_.BroadcastsInDim S256x64 (![] : Fin 0 → Fin S256x64.rank)
  scatter_S8704x8320_S711064x2_S711064_n_01_01_1_wf : ScatterDims.WF S8704x8320 S711064x2 S711064 [] [0, 1] [0, 1] 1
  dot_S256x8704_S8704x128_S256x128_1_0_0_1_n_n_wf : DotDims.WF S256x8704 S8704x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x8704.size a ≤ S256x8704.size a
  hwx0_0 : ∀ i : grid0.Coords, EltTy.bits .f32 = 32 ∨ (Rect.block (s := S256x8704) S256x8704.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8704x128.size a ≤ S8704x8320.size a
  hwx0_1 : ∀ i : grid0.Coords, EltTy.bits .f32 = 32 ∨ (Rect.block (s := S8704x8320) S8704x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x8320.size a
  hwx0_2 : ∀ i : grid0.Coords, EltTy.bits .f32 = 32 ∨ (Rect.block (s := S256x8320) S256x128.size (cc0_transform_2 i) (hinb0_2 i)).WholeWords (EltTy.packing .f32)

variable [Facts₀]

def scatter_S8704x8320_S711064x2_S711064_n_01_01_1 : ScatterDims S8704x8320 S711064x2 S711064 where
  updateWindowDims := []
  insertedWindowDims := [0, 1]
  scatterDimsToOperandDims := [0, 1]
  indexVectorDim := 1
  wf := scatter_S8704x8320_S711064x2_S711064_n_01_01_1_wf
def dot_S256x8704_S8704x128_S256x128_1_0_0_1_n_n : DotDims S256x8704 S8704x128 S256x128 where
  lhsContracting := [1]
  rhsContracting := [0]
  lhsNonContracting := [0]
  rhsNonContracting := [1]
  lhsBatch := []
  rhsBatch := []
  wf := dot_S256x8704_S8704x128_S256x128_1_0_0_1_n_n_wf

abbrev win0_0 : Pipeline.Window sig grid0 :=
  Pipeline.Window.ofSpec (Memref.whole main_v0) S256x8704.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8704x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x8192 : Shape := ⟨2, ![256, 8192]⟩
abbrev S256x512 : Shape := ⟨2, ![256, 512]⟩
abbrev S711064 : Shape := ⟨1, ![711064]⟩
abbrev S256x8704 : Shape := ⟨2, ![256, 8704]⟩
abbrev S711064x1 : Shape := ⟨2, ![711064, 1]⟩
abbrev S8704x256 : Shape := ⟨2, ![8704, 256]⟩
abbrev S_ : Shape := ⟨0, ![]⟩
abbrev S711064x256 : Shape := ⟨2, ![711064, 256]⟩
abbrev S8256x256 : Shape := ⟨2, ![8256, 256]⟩
abbrev S256x8256 : Shape := ⟨2, ![256, 8256]⟩
abbrev S256x64 : Shape := ⟨2, ![256, 64]⟩

abbrev nBuf : Space → Nat
  | .hbm => 40
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S256x512, .f32⟩
  | .hbm, ⟨2, _⟩ => ⟨S711064, .i32⟩
  | .hbm, ⟨3, _⟩ => ⟨S711064, .i32⟩
  | .hbm, ⟨4, _⟩ => ⟨S711064, .f32⟩
  | .hbm, ⟨5, _⟩ => ⟨S256x8704, .f32⟩
  | .hbm, ⟨6, _⟩ => ⟨S711064x1, .f32⟩
  | .hbm, ⟨7, _⟩ => ⟨S8704x256, .f32⟩
  | .hbm, ⟨8, _⟩ => ⟨S_, .i32⟩
  | .hbm, ⟨9, _⟩ => ⟨S711064, .i32⟩
  | .hbm, ⟨10, _⟩ => ⟨S711064, .i1⟩
  | .hbm, ⟨11, _⟩ => ⟨S_, .i32⟩
  | .hbm, ⟨12, _⟩ => ⟨S711064, .i32⟩
  | .hbm, ⟨13, _⟩ => ⟨S711064, .i32⟩
  | .hbm, ⟨14, _⟩ => ⟨S711064, .i32⟩
  | .hbm, ⟨15, _⟩ => ⟨S711064x1, .i32⟩
  | .hbm, ⟨16, _⟩ => ⟨S711064x256, .f32⟩
  | .hbm, ⟨17, _⟩ => ⟨S711064x256, .f32⟩
  | .hbm, ⟨18, _⟩ => ⟨S711064x256, .f32⟩
  | .hbm, ⟨19, _⟩ => ⟨S_, .f32⟩
  | .hbm, ⟨20, _⟩ => ⟨S8256x256, .f32⟩
  | .hbm, ⟨21, _⟩ => ⟨S711064x1, .i32⟩
  | .hbm, ⟨22, _⟩ => ⟨S8256x256, .f32⟩
  | .hbm, ⟨23, _⟩ => ⟨S256x8256, .f32⟩
  | .hbm, ⟨24, _⟩ => ⟨S256x8256, .f32⟩
  | .hbm, ⟨25, _⟩ => ⟨S256x8256, .f32⟩
  | .hbm, ⟨26, _⟩ => ⟨S_, .f32⟩
  | .hbm, ⟨27, _⟩ => ⟨S256x8256, .f32⟩
  | .hbm, ⟨28, _⟩ => ⟨S256x8256, .f32⟩
  | .hbm, ⟨29, _⟩ => ⟨S_, .f32⟩
  | .hbm, ⟨30, _⟩ => ⟨S256x8256, .f32⟩
  | .hbm, ⟨31, _⟩ => ⟨S256x8256, .f32⟩
  | .hbm, ⟨32, _⟩ => ⟨S256x8192, .f32⟩
  | .hbm, ⟨33, _⟩ => ⟨S256x64, .f32⟩
  | .hbm, ⟨34, _⟩ => ⟨S_, .f32⟩
  | .hbm, ⟨35, _⟩ => ⟨S256x64, .f32⟩
  | .hbm, ⟨36, _⟩ => ⟨S256x64, .f32⟩
  | .hbm, ⟨37, _⟩ => ⟨S_, .f32⟩
  | .hbm, ⟨38, _⟩ => ⟨S256x64, .f32⟩
  | .hbm, ⟨39, _⟩ => ⟨S256x64, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  concatenates_S256x8192_S256x512_S256x8704_d1 : Shape.Concatenates [S256x8192, S256x512] S256x8704 1
  bcast_S711064_S711064x1_0 : S711064.BroadcastsInDim S711064x1 (![0] : Fin 1 → Fin S711064x1.rank)
  transposes_S256x8704_S8704x256_1_0 : S256x8704.Transposes [1, 0] S8704x256
  bcast_S_S711064 : S_.BroadcastsInDim S711064 (![] : Fin 0 → Fin S711064.rank)
  bcast_S711064x1_S711064x256_0_1 : S711064x1.BroadcastsInDim S711064x256 (![0, 1] : Fin 2 → Fin S711064x256.rank)
  bcast_S_S8256x256 : S_.BroadcastsInDim S8256x256 (![] : Fin 0 → Fin S8256x256.rank)
  transposes_S8256x256_S256x8256_1_0 : S8256x256.Transposes [1, 0] S256x8256
  bcast_S_S256x8256 : S_.BroadcastsInDim S256x8256 (![] : Fin 0 → Fin S256x8256.rank)
  slices_S256x8256_S256x8192_0_0 : S256x8256.Slices ![0, 0] S256x8192
  slices_S256x8256_S256x64_0_8192 : S256x8256.Slices ![0, 8192] S256x64
  bcast_S_S256x64 : S_.BroadcastsInDim S256x64 (![] : Fin 0 → Fin S256x64.rank)
  gather_S8704x256_S711064x1_S711064x256_1_0_n_n_0_1_1256_wf : GatherDims.WF S8704x256 S711064x1 S711064x256 [1] [0] [] [0] [] 1 ![1, 256]
  scatter_S8256x256_S711064x1_S711064x256_1_0_0_1_wf : ScatterDims.WF S8256x256 S711064x1 S711064x256 [1] [0] [0] 1

variable [Facts₀]

def gather_S8704x256_S711064x1_S711064x256_1_0_n_n_0_1_1256 : GatherDims S8704x256 S711064x1 S711064x256 where
  offsetDims := [1]
  collapsedSliceDims := [0]
  operandBatchingDims := []
  startIndicesBatchingDims := []
  startIndexMap := [0]
  indexVectorDim := 1
  sliceSizes := ![1, 256]
  wf := gather_S8704x256_S711064x1_S711064x256_1_0_n_n_0_1_1256_wf
def scatter_S8256x256_S711064x1_S711064x256_1_0_0_1 : ScatterDims S8256x256 S711064x1 S711064x256 where
  updateWindowDims := [1]
  insertedWindowDims := [0]
  scatterDimsToOperandDims := [0]
  indexVectorDim := 1
  wf := scatter_S8256x256_S711064x1_S711064x256_1_0_0_1_wf

class Facts : Prop extends Facts₀ where

variable [Facts]
-- ==== Proof.LibGatherScatterRows.lean ====
/-
  A row-gather and an accumulating row-scatter, read at an index.

  A table of N rows and C columns is read through a column of E integer index words: result row e is the
  table's row at the e-th word, the word read as a signed integer and clamped into [0, N - 1]. In the other
  direction E update rows are added into a table of N rows: update row e lands in the row its word names,
  the word read as a signed integer and NOT clamped, and is dropped when that row is outside [0, N). Both
  facts are stated for arbitrary extents, from the dimension numbers alone. The scatter of E scalars into a
  vector of N entries is the same with the column axis left out.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.LibRows

open Idealize.ShloMosaic Idealize.ShloMosaic.ValueIdx

/-! ## Where an index word lands -/

/-- The entry of an axis of extent N that a 32-bit index word names when it is read as a signed integer
    and not clamped: the integer itself when it lies in [0, N), and nothing otherwise. -/
def landIx (N : Nat) (w : BitVec 32) : Option (Fin N) :=
  if h : 0 ≤ w.toInt ∧ w.toInt < N then some ⟨w.toInt.toNat, by omega⟩ else none

/-! ## Indices from coordinates are equal exactly when the coordinates are -/

/-- Two rank-2 indices built from coordinates are equal exactly when both coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices built from a coordinate are equal exactly when the coordinates are. -/
theorem ix1_inj {n : Nat} (a a' : Fin n) : ix1 a = ix1 a' ↔ a = a' := by
  constructor
  · intro h
    exact congrFun h 0
  · rintro rfl; rfl

/-! ## The gather -/

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

/-! ## Where an update of the row scatter lands -/

section Rows
variable {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
include huw hiw hsd hivd

/-- On the row axis the window of update (e, j') starts at the e-th index word, read signed. -/
theorem rows_start0 (idx : IVec ⟨2, ![E, 1]⟩ 32) (e : Fin E) (j' : Fin C) :
    d.start (ix2 e j') idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- On the column axis the window starts at 0: no index word names that axis. -/
theorem rows_start1 (idx : IVec ⟨2, ![E, 1]⟩ 32) (e : Fin E) (j' : Fin C) :
    d.start (ix2 e j') idx 1 = 0 := by
  obtain ⟨uw, iw, sd, ivd, wf⟩ := d
  simp only at huw hiw hsd hivd
  subst huw hiw hsd hivd
  rfl

/-- The row axis is an inserted one: the window coordinate there is 0. -/
theorem rows_window0 (e : Fin E) (j' : Fin C) : d.window (ix2 e j') 0 = 0 := by
  obtain ⟨uw, iw, sd, ivd, wf⟩ := d
  simp only at huw hiw hsd hivd
  subst huw hiw hsd hivd
  rfl

/-- On the column axis the window coordinate is the update's column. -/
theorem rows_window1 (e : Fin E) (j' : Fin C) : d.window (ix2 e j') 1 = j'.val := by
  obtain ⟨uw, iw, sd, ivd, wf⟩ := d
  simp only at huw hiw hsd hivd
  subst huw hiw hsd hivd
  rfl

/-- Update (e, j') lands in column j' of the row its index word names, and nowhere when that row is
    outside [0, N). -/
theorem rows_resultIdx (idx : IVec ⟨2, ![E, 1]⟩ 32) (e : Fin E) (j' : Fin C) :
    d.resultIdx? (ix2 e j') idx = (landIx N (idx (ix2 e 0))).map (fun n => ix2 n j') := by
  have h0 := rows_start0 d huw hiw hsd hivd idx e j'
  have h1 := rows_start1 d huw hiw hsd hivd idx e j'
  have w0 := rows_window0 d huw hiw hsd hivd e j'
  have w1 := rows_window1 d huw hiw hsd hivd e j'
  unfold ScatterDims.resultIdx? landIx
  by_cases h : 0 ≤ (idx (ix2 e 0)).toInt ∧ (idx (ix2 e 0)).toInt < N
  · -- in range on both axes: the column always is
    have hall : ∀ a : Fin 2, 0 ≤ d.start (ix2 e j') idx a + d.window (ix2 e j') a
        ∧ d.start (ix2 e j') idx a + d.window (ix2 e j') a < (⟨2, ![N, C]⟩ : Shape).size a := by
      intro a
      match a with
      | ⟨0, _⟩ =>
        show 0 ≤ d.start (ix2 e j') idx 0 + d.window (ix2 e j') 0 ∧ d.start (ix2 e j') idx 0 + d.window (ix2 e j') 0 < (N : Int)
        rw [h0, w0]; omega
      | ⟨1, _⟩ =>
        show 0 ≤ d.start (ix2 e j') idx 1 + d.window (ix2 e j') 1 ∧ d.start (ix2 e j') idx 1 + d.window (ix2 e j') 1 < (C : Int)
        rw [h1, w1]; have := j'.isLt; omega
    rw [dif_pos hall, dif_pos h]
    simp only [Option.map_some]
    congr 1
    funext a
    apply Fin.ext
    match a with
    | ⟨0, _⟩ =>
      show (d.start (ix2 e j') idx 0 + d.window (ix2 e j') 0).toNat = (idx (ix2 e 0)).toInt.toNat
      rw [h0, w0]; simp
    | ⟨1, _⟩ =>
      show (d.start (ix2 e j') idx 1 + d.window (ix2 e j') 1).toNat = j'.val
      rw [h1, w1]; simp
  · -- out of range on the row axis: the update is dropped
    have hnall : ¬ ∀ a : Fin 2, 0 ≤ d.start (ix2 e j') idx a + d.window (ix2 e j') a
        ∧ d.start (ix2 e j') idx a + d.window (ix2 e j') a < (⟨2, ![N, C]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Rows

/-! ## Where an update of the scalar scatter lands -/

section Vec
variable {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
include huw hiw hsd hivd

/-- The window of update e starts at the e-th index word, read signed. -/
theorem vec_start0 (idx : IVec ⟨2, ![E, 1]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- The one axis is an inserted one: the window coordinate there is 0. -/
theorem vec_window0 (e : Fin E) : d.window (ix1 e) 0 = 0 := by
  obtain ⟨uw, iw, sd, ivd, wf⟩ := d
  simp only at huw hiw hsd hivd
  subst huw hiw hsd hivd
  rfl

/-- Update e lands at the entry its index word names, and nowhere when that is outside [0, N). -/
theorem vec_resultIdx (idx : IVec ⟨2, ![E, 1]⟩ 32) (e : Fin E) :
    d.resultIdx? (ix1 e) idx = (landIx N (idx (ix2 e 0))).map ix1 := by
  have h0 := vec_start0 d huw hiw hsd hivd idx e
  have w0 := vec_window0 d huw hiw hsd hivd e
  unfold ScatterDims.resultIdx? landIx
  by_cases h : 0 ≤ (idx (ix2 e 0)).toInt ∧ (idx (ix2 e 0)).toInt < N
  · have hall : ∀ a : Fin 1, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [h0, w0]; omega
    rw [dif_pos hall, dif_pos h]
    simp only [Option.map_some]
    congr 1
    funext a
    apply Fin.ext
    match a with
    | ⟨0, _⟩ =>
      show (d.start (ix1 e) idx 0 + d.window (ix1 e) 0).toNat = (idx (ix2 e 0)).toInt.toNat
      rw [h0, w0]; simp
  · have hnall : ¬ ∀ a : Fin 1, 0 ≤ d.start (ix1 e) idx a + d.window (ix1 e) a
        ∧ d.start (ix1 e) idx a + d.window (ix1 e) a < (⟨1, ![N]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Vec

/-! ## The scatters read at an index -/

/-- An accumulating row scatter read at (n, j): the table's entry plus the sum, over the update rows e whose
    index word lands in row n (read signed, not clamped, dropped outside [0, N)), of the update's entry (e, j). -/
theorem scatterAdd_rows {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : (⟨2, ![N, C]⟩ : Shape).Idx → EReal) (idx : IVec ⟨2, ![E, 1]⟩ 32) (upd : (⟨2, ![E, C]⟩ : Shape).Idx → EReal) (n : Fin N) (j : Fin C) :
    Ideal.hostScatterAdd d x idx upd (ix2 n j)
      = x (ix2 n j) + ∑ e ∈ Finset.univ.filter (fun e : Fin E => landIx N (idx (ix2 e 0)) = some n), upd (ix2 e j) := by
  -- update (e, j') lands at (n, j) exactly when its word lands in row n and j' = j
  have key : ∀ (e : Fin E) (j' : Fin C), d.resultIdx? (ix2 e j') idx = some (ix2 n j)
      ↔ (landIx N (idx (ix2 e 0)) = some n ∧ j' = j) := by
    intro e j'
    rw [rows_resultIdx d huw hiw hsd hivd idx e j']
    cases hL : landIx N (idx (ix2 e 0)) with
    | none => simp
    | some m => simp only [Option.map_some, Option.some.injEq, ix2_inj]
  unfold Ideal.hostScatterAdd
  congr 1
  -- the sum over the update indices as a double sum; for each e the inner sum keeps at most the term j' = j
  rw [Finset.sum_filter, sum_idx2, Finset.sum_filter]
  refine Finset.sum_congr rfl fun e _ => ?_
  by_cases hl : landIx N (idx (ix2 e 0)) = some n
  · rw [if_pos hl, Finset.sum_eq_single j]
    · rw [if_pos ((key e j).2 ⟨hl, rfl⟩)]
    · intro j' _ hne
      rw [if_neg (fun h => hne ((key e j').1 h).2)]
    · intro h; exact absurd (Finset.mem_univ _) h
  · rw [if_neg hl]
    apply Finset.sum_eq_zero
    intro j' _
    rw [if_neg (fun h => hl ((key e j').1 h).1)]

/-- An accumulating scatter of scalars into a vector, read at n: the vector's entry plus the sum of the
    updates e whose index word lands at n (read signed, not clamped, dropped outside [0, N)). -/
theorem scatterAdd_vec {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : (⟨1, ![N]⟩ : Shape).Idx → EReal) (idx : IVec ⟨2, ![E, 1]⟩ 32) (upd : (⟨1, ![E]⟩ : Shape).Idx → EReal) (n : Fin N) :
    Ideal.hostScatterAdd d x idx upd (ix1 n)
      = x (ix1 n) + ∑ e ∈ Finset.univ.filter (fun e : Fin E => landIx N (idx (ix2 e 0)) = some n), upd (ix1 e) := by
  have key : ∀ (e : Fin E), d.resultIdx? (ix1 e) idx = some (ix1 n)
      ↔ landIx N (idx (ix2 e 0)) = some n := by
    intro e
    rw [vec_resultIdx d huw hiw hsd hivd idx e]
    cases hL : landIx N (idx (ix2 e 0)) with
    | none => simp
    | some m => simp only [Option.map_some, Option.some.injEq, ix1_inj]
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix1 n) then upd (ix1 e) else 0) = _
  by_cases hl : landIx N (idx (ix2 e 0)) = some n
  · rw [if_pos hl, if_pos ((key e).2 hl)]
  · rw [if_neg hl, if_neg (fun h => hl ((key e).1 h))]

/-- The row scatter as the host's accumulating scatter states it over the extended reals. -/
theorem scatterAdd_rows' {φ : FTy} {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : FVec Ideal ⟨2, ![N, C]⟩ φ) (idx : IVec ⟨2, ![E, 1]⟩ 32) (upd : FVec Ideal ⟨2, ![E, C]⟩ φ) (n : Fin N) (j : Fin C) :
    Host.scatterAdd (F := Ideal) d x idx upd (ix2 n j)
      = x (ix2 n j) + ∑ e ∈ Finset.univ.filter (fun e : Fin E => landIx N (idx (ix2 e 0)) = some n), upd (ix2 e j) :=
  scatterAdd_rows d huw hiw hsd hivd x idx upd n j

/-- The scalar scatter as the host's accumulating scatter states it over the extended reals. -/
theorem scatterAdd_vec' {φ : FTy} {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : FVec Ideal ⟨1, ![N]⟩ φ) (idx : IVec ⟨2, ![E, 1]⟩ 32) (upd : FVec Ideal ⟨1, ![E]⟩ φ) (n : Fin N) :
    Host.scatterAdd (F := Ideal) d x idx upd (ix1 n)
      = x (ix1 n) + ∑ e ∈ Finset.univ.filter (fun e : Fin E => landIx N (idx (ix2 e 0)) = some n), upd (ix1 e) :=
  scatterAdd_vec d huw hiw hsd hivd x idx upd n

end Cert.LibRows

end
-- ==== Proof.LibScatterPoints.lean ====
/-
  An accumulating scatter of E scalars into a table of N0 rows and N1 columns, read at an index.

  Each update e carries a PAIR of integer index words, one per axis of the table. Both are read as signed
  integers and neither is clamped: update e is added to the entry (a, b) its two words name, and is
  dropped as soon as either word lies outside its axis. So the table's entry (a, b) after the scatter is
  its entry before plus the sum of the updates whose first word lands at a and whose second lands at b.
  Stated for arbitrary extents, from the dimension numbers alone.
-/
import proofs.«429889_j90486370993052_1_alg».proof.Proof.LibGatherScatterRows

noncomputable section

open scoped BigOperators

namespace Cert.LibRows

open Idealize.ShloMosaic Idealize.ShloMosaic.ValueIdx

/-- An index word lands at entry n of an axis exactly when, read signed, it IS n: being equal to a
    coordinate of the axis already puts it in range. -/
theorem landIx_eq_some_iff {N : Nat} (w : BitVec 32) (n : Fin N) : landIx N w = some n ↔ w.toInt = (n.val : Int) := by
  unfold landIx
  constructor
  · intro h
    split at h
    · next hr =>
      have := congrArg Fin.val (Option.some.inj h)
      simp only at this
      omega
    · exact absurd h (by simp)
  · intro h
    have hr : 0 ≤ w.toInt ∧ w.toInt < N := by have := n.isLt; omega
    rw [dif_pos hr]
    congr 1
    apply Fin.ext
    show w.toInt.toNat = n.val
    omega

section Points
variable {N0 N1 E : Nat} (d : ScatterDims ⟨2, ![N0, N1]⟩ ⟨2, ![E, 2]⟩ ⟨1, ![E]⟩)
    (huw : d.updateWindowDims = []) (hiw : d.insertedWindowDims = [0, 1]) (hsd : d.scatterDimsToOperandDims = [0, 1]) (hivd : d.indexVectorDim = 1)
include huw hiw hsd hivd

/-- On the row axis the window of update e starts at its first index word, read signed. -/
theorem points_start0 (idx : IVec ⟨2, ![E, 2]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (show (0 : Fin 2) ∈ ([0, 1] : List (Fin 2)) by decide) hn

/-- On the column axis the window of update e starts at its second index word, read signed. -/
theorem points_start1 (idx : IVec ⟨2, ![E, 2]⟩ 32) (e : Fin E) :
    d.start (ix1 e) idx 1 = (idx (ix2 e 1)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (show (1 : Fin 2) ∈ ([0, 1] : List (Fin 2)) by decide) hn

/-- Both axes are inserted ones: an update is a single entry, its window coordinate 0 on each axis. -/
theorem points_window (e : Fin E) (a : Fin 2) : d.window (ix1 e) a = 0 := by
  obtain ⟨uw, iw, sd, ivd, wf⟩ := d
  simp only at huw hiw hsd hivd
  subst huw hiw hsd hivd
  match a with
  | ⟨0, _⟩ => rfl
  | ⟨1, _⟩ => rfl

/-- Update e lands at (a, b) exactly when its first word lands at a and its second at b. -/
theorem points_resultIdx_iff (idx : IVec ⟨2, ![E, 2]⟩ 32) (e : Fin E) (a : Fin N0) (b : Fin N1) :
    d.resultIdx? (ix1 e) idx = some (ix2 a b)
      ↔ (landIx N0 (idx (ix2 e 0)) = some a ∧ landIx N1 (idx (ix2 e 1)) = some b) := by
  have h0 := points_start0 d huw hiw hsd hivd idx e
  have h1 := points_start1 d huw hiw hsd hivd idx e
  have w0 := points_window d huw hiw hsd hivd e 0
  have w1 := points_window d huw hiw hsd hivd e 1
  rw [landIx_eq_some_iff, landIx_eq_some_iff]
  unfold ScatterDims.resultIdx?
  constructor
  · intro h
    split at h
    · next hall =>
      have hv := Option.some.inj h
      have e0 := congrArg Fin.val (congrFun hv 0)
      have e1 := congrArg Fin.val (congrFun hv 1)
      have b0 := hall 0
      have b1 := hall 1
      rw [h0, w0] at b0
      rw [h1, w1] at b1
      have e0' : ((idx (ix2 e 0)).toInt + ((0 : Nat) : Int)).toNat = a.val := by
        have : (d.start (ix1 e) idx 0 + d.window (ix1 e) 0).toNat = a.val := e0
        rwa [h0, w0] at this
      have e1' : ((idx (ix2 e 1)).toInt + ((0 : Nat) : Int)).toNat = b.val := by
        have : (d.start (ix1 e) idx 1 + d.window (ix1 e) 1).toNat = b.val := e1
        rwa [h1, w1] at this
      constructor <;> omega
    · exact absurd h (by simp)
  · rintro ⟨ea, eb⟩
    have hall : ∀ x : Fin 2, 0 ≤ d.start (ix1 e) idx x + d.window (ix1 e) x
        ∧ d.start (ix1 e) idx x + d.window (ix1 e) x < (⟨2, ![N0, N1]⟩ : Shape).size x := by
      intro x
      match x with
      | ⟨0, _⟩ =>
        show 0 ≤ d.start (ix1 e) idx 0 + d.window (ix1 e) 0 ∧ d.start (ix1 e) idx 0 + d.window (ix1 e) 0 < (N0 : Int)
        rw [h0, w0]; have := a.isLt; omega
      | ⟨1, _⟩ =>
        show 0 ≤ d.start (ix1 e) idx 1 + d.window (ix1 e) 1 ∧ d.start (ix1 e) idx 1 + d.window (ix1 e) 1 < (N1 : Int)
        rw [h1, w1]; have := b.isLt; omega
    rw [dif_pos hall]
    congr 1
    funext x
    apply Fin.ext
    match x with
    | ⟨0, _⟩ =>
      show (d.start (ix1 e) idx 0 + d.window (ix1 e) 0).toNat = a.val
      rw [h0, w0]; omega
    | ⟨1, _⟩ =>
      show (d.start (ix1 e) idx 1 + d.window (ix1 e) 1).toNat = b.val
      rw [h1, w1]; omega

end Points

/-- The accumulating scatter of scalars into a table, read at (a, b): the table's entry plus the sum of the
    updates e whose two index words, read signed and not clamped, are a and b. -/
theorem scatterAdd_points {N0 N1 E : Nat} (d : ScatterDims ⟨2, ![N0, N1]⟩ ⟨2, ![E, 2]⟩ ⟨1, ![E]⟩)
    (huw : d.updateWindowDims = []) (hiw : d.insertedWindowDims = [0, 1]) (hsd : d.scatterDimsToOperandDims = [0, 1]) (hivd : d.indexVectorDim = 1)
    (x : (⟨2, ![N0, N1]⟩ : Shape).Idx → EReal) (idx : IVec ⟨2, ![E, 2]⟩ 32) (upd : (⟨1, ![E]⟩ : Shape).Idx → EReal) (a : Fin N0) (b : Fin N1) :
    Ideal.hostScatterAdd d x idx upd (ix2 a b)
      = x (ix2 a b) + ∑ e ∈ Finset.univ.filter (fun e : Fin E => (idx (ix2 e 0)).toInt = (a.val : Int) ∧ (idx (ix2 e 1)).toInt = (b.val : Int)), upd (ix1 e) := by
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix2 a b) then upd (ix1 e) else 0) = _
  have key := points_resultIdx_iff d huw hiw hsd hivd idx e a b
  rw [landIx_eq_some_iff, landIx_eq_some_iff] at key
  by_cases hl : (idx (ix2 e 0)).toInt = (a.val : Int) ∧ (idx (ix2 e 1)).toInt = (b.val : Int)
  · rw [if_pos hl, if_pos (key.2 hl)]
  · rw [if_neg hl, if_neg (fun h => hl (key.1 h))]

/-- The same, as the host's accumulating scatter states it over the extended reals. -/
theorem scatterAdd_points' {φ : FTy} {N0 N1 E : Nat} (d : ScatterDims ⟨2, ![N0, N1]⟩ ⟨2, ![E, 2]⟩ ⟨1, ![E]⟩)
    (huw : d.updateWindowDims = []) (hiw : d.insertedWindowDims = [0, 1]) (hsd : d.scatterDimsToOperandDims = [0, 1]) (hivd : d.indexVectorDim = 1)
    (x : FVec Ideal ⟨2, ![N0, N1]⟩ φ) (idx : IVec ⟨2, ![E, 2]⟩ 32) (upd : FVec Ideal ⟨1, ![E]⟩ φ) (a : Fin N0) (b : Fin N1) :
    Host.scatterAdd (F := Ideal) d x idx upd (ix2 a b)
      = x (ix2 a b) + ∑ e ∈ Finset.univ.filter (fun e : Fin E => (idx (ix2 e 0)).toInt = (a.val : Int) ∧ (idx (ix2 e 1)).toInt = (b.val : Int)), upd (ix1 e) :=
  scatterAdd_points d huw hiw hsd hivd x idx upd a b

/-- The row scatter of the other file with its landing condition spelt as an equation of integers. -/
theorem scatterAdd_rows_int {φ : FTy} {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : FVec Ideal ⟨2, ![N, C]⟩ φ) (idx : IVec ⟨2, ![E, 1]⟩ 32) (upd : FVec Ideal ⟨2, ![E, C]⟩ φ) (n : Fin N) (j : Fin C) :
    Host.scatterAdd (F := Ideal) d x idx upd (ix2 n j)
      = x (ix2 n j) + ∑ e ∈ Finset.univ.filter (fun e : Fin E => (idx (ix2 e 0)).toInt = (n.val : Int)), upd (ix2 e j) := by
  rw [scatterAdd_rows' d huw hiw hsd hivd x idx upd n j]
  congr 2
  ext e
  simp only [Finset.mem_filter, Finset.mem_univ, true_and]
  exact landIx_eq_some_iff _ _

end Cert.LibRows

end
-- ==== Proof.KernelValue.lean ====
/-
  What the dense program computes.

  Before its one grid of 65 points the program joins the two activation arrays side by side into x, 256 rows by
  8704 columns, and builds the weight table W, 8704 rows by 8320 columns, by adding each value v e into the
  cell (cols e, rows e), an index below 0 first moved up by the extent of its axis. Point t of the grid then
  reads all of x and the 128 columns 128 t .. 128 t + 127 of W, multiplies them, applies the logistic function
  and writes the result to the same 128 columns of the activation array A, 256 by 8320. The 65 column blocks
  tile A, so after the grid  A (b, n) = logistic (Σ_k x (b, k) · W (k, n))  at every index. The program's two
  results are read off A afterwards: its first 8192 columns, and twice its next 64 columns less one.
-/
import proofs.«429889_j90486370993052_1_alg».proof.Proof.Gen.KernelIdeal.Frame
import proofs.«429889_j90486370993052_1_alg».proof.Proof.LibScatterPoints
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Dense

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two arrays the grid reads, as functions of the arguments -/

/-- The activations joined side by side. -/
def xOf (a : FVec Ideal S256x8192 .f32) (s : FVec Ideal S256x512 .f32) : FVec Ideal S256x8704 .f32 :=
  concatenate S256x8704 1 [⟨S256x8192, a⟩, ⟨S256x512, s⟩] concatenates_S256x8192_S256x512_S256x8704_d1

/-- An index vector with its entries below 0 moved up by the extent n of the axis they index. -/
def wrapIdx (n : BitVec 32) (x : IVec S711064 32) : IVec S711064 32 :=
  select (cmpi .slt x (broadcastInDim S711064 ![] bcast_S_S711064 (constantI S_ 32 0#32)))
    (addi x (broadcastInDim S711064 ![] bcast_S_S711064 (constantI S_ 32 n))) x

/-- The pairs (column index, row index) the scatter is given, one per value. -/
def idxPairs (rows cols : IVec S711064 32) : IVec S711064x2 32 :=
  concatenate S711064x2 1
    [⟨S711064x1, broadcastInDim S711064x1 ![0] bcast_S711064_S711064x1_0 (wrapIdx 8704#32 cols)⟩,
     ⟨S711064x1, broadcastInDim S711064x1 ![0] bcast_S711064_S711064x1_0 (wrapIdx 8320#32 rows)⟩]
    concatenates_S711064x1_S711064x1_S711064x2_d1

/-- The weight table: the values added into a table of zeros at their pairs. -/
def wtOf (rows cols : IVec S711064 32) (v : FVec Ideal S711064 .f32) : FVec Ideal S8704x8320 .f32 :=
  Host.scatterAdd scatter_S8704x8320_S711064x2_S711064_n_01_01_1
    (broadcastInDim S8704x8320 ![] bcast_S_S8704x8320 (constant S_ .f32 0x00000000#32)) (idxPairs rows cols) v

/-- When the grid is entered the first window's array holds the joined activations. -/
theorem x_entry (c : Dev nD) :
    V m c main_v0 = xOf (m ((c : Thread nD τ).loc main_arg0)) (m ((c : Thread nD τ).loc main_arg1)) := by
  show StableHlo.after hostOps0 (fun b => m (c, b)) (Proc.devRef .tc main_v0) = _
  after_results
  rfl

set_option maxHeartbeats 2000000 in
/-- When the grid is entered the second window's array holds the weight table. -/
theorem w_entry (c : Dev nD) :
    V m c main_v15 = wtOf (m ((c : Thread nD τ).loc main_arg2)) (m ((c : Thread nD τ).loc main_arg3)) (m ((c : Thread nD τ).loc main_arg4)) := by
  show StableHlo.after hostOps0 (fun b => m (c, b)) (Proc.devRef .tc main_v15) = _
  after_results_simp <;> rfl

/-! ## One point's product, at an index -/

/-- What a point stores, at row p and column q of its block: the logistic of the product of row p of the
    activations with column q of the point's 128 columns of the weight table (a change of float format is the
    identity, and the product accumulates into zero). -/
theorem pay_apply (x0 : Vec Ideal S256x8704 .f32) (x1 : Vec Ideal S8704x128 .f32) (p : Fin 256) (q : Fin 128) :
    k0_pay1 x0 x1 (ix2 p q) = Ideal.logistic (∑ k : Fin 8704, x0 (ix2 p k) * x1 (ix2 k q)) := by
  unfold k0_pay1
  show Ideal.logistic (FloatOps.matmul (F := Ideal) dot_S256x8704_S8704x128_S256x128_1_0_0_1_n_n none
      (truncf .bf16 (shapeCast S256x8704 x0 shapeCasts_S256x8704_S256x8704) bitsLt_bf16_f32)
      (truncf .bf16 (shapeCast S8704x128 x1 shapeCasts_S8704x128_S8704x128) bitsLt_bf16_f32)
      (constant (F := Ideal) S256x128 .f32 0x00000000#32) (ix2 p q)) = _
  congr 1
  rw [Ideal.matmul_constant_zero_apply, shapeCast_self, shapeCast_self,
    ← Equiv.sum_comp (contrEquiv1 dot_S256x8704_S8704x128_S256x128_1_0_0_1_n_n 8704 rfl rfl).symm]
  refine Finset.sum_congr rfl fun k _ => ?_
  have ck := contrEquiv1_symm_val dot_S256x8704_S8704x128_S256x128_1_0_0_1_n_n 8704 rfl rfl k
  have hl : dot_S256x8704_S8704x128_S256x128_1_0_0_1_n_n.lhsIdx (ix2 p q)
      ((contrEquiv1 dot_S256x8704_S8704x128_S256x128_1_0_0_1_n_n 8704 rfl rfl).symm k) = ix2 p k := by
    funext ax; apply Fin.ext
    match ax with
    | ⟨0, _⟩ => simp [DotDims.lhsIdx, dot_S256x8704_S8704x128_S256x128_1_0_0_1_n_n]; rfl
    | ⟨1, _⟩ => simp [DotDims.lhsIdx, dot_S256x8704_S8704x128_S256x128_1_0_0_1_n_n]; exact ck
  have hr : dot_S256x8704_S8704x128_S256x128_1_0_0_1_n_n.rhsIdx (ix2 p q)
      ((contrEquiv1 dot_S256x8704_S8704x128_S256x128_1_0_0_1_n_n 8704 rfl rfl).symm k) = ix2 k q := by
    funext ax; apply Fin.ext
    match ax with
    | ⟨0, _⟩ => simp [DotDims.rhsIdx, dot_S256x8704_S8704x128_S256x128_1_0_0_1_n_n]; exact ck
    | ⟨1, _⟩ => simp [DotDims.rhsIdx, dot_S256x8704_S8704x128_S256x128_1_0_0_1_n_n]; rfl
  rw [hl, hr]
  rfl

/-! ## Which block each point reads and writes -/

theorem hz : (![0, 0] : Fin 2 → Nat) = fun _ => 0 := funext fun a => by fin_cases a <;> rfl

/-- The printed index maps, decided over the 65 points: the activations' window stays on its one block, and the
    weight table's window and the output's are both on column block t. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-! ## The activation array as one function -/

/-- The activation array as one function of the two arrays the grid reads: at (b, n) the logistic of row b of the
    activations times column n of the weight table. -/
def actOf (x : FVec Ideal S256x8704 .f32) (w : FVec Ideal S8704x8320 .f32) : S256x8320.Idx → EReal :=
  fun i => Ideal.logistic (∑ k : Fin 8704, x (ix2 (i 0) k) * w (ix2 k (i 1)))

end Cert.KernelIdeal.Dense

end
-- ==== Proof.KernelBlocks.lean ====
/-
  From one point's block to the whole activation array.

  Point t of the grid reads all of the activations x and columns 128 t .. 128 t + 127 of the weight table W, and
  writes columns 128 t .. 128 t + 127 of the activation array A. Entry (p, q) of what it writes is the logistic of
  row p of x times column q of its weight block, that is column 128 t + q of W: the point's block of the one
  function  A (b, n) = logistic (Σ_k x (b, k) · W (k, n)).  Column n lies in block n / 128, so the 65 blocks tile
  A and A ends holding that function everywhere.
-/
import proofs.«429889_j90486370993052_1_alg».proof.Proof.KernelValue

set_option maxRecDepth 16384

noncomputable section

namespace Cert.KernelIdeal.Dense

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where a block's index sits in its array (the printed index maps, no array contents involved) -/

/-- The activations' window is on its one block at every point: a block index is the array index. -/
theorem x_emb (t : Fin cfg0.N) (p : Fin 256) (k : Fin 8704) :
    ((cfg0.win 0).blk t).view.emb (ix2 p k) = (ix2 p k : S256x8704.Idx) := by
  obtain ⟨e0, e1, -, -, -, -⟩ := idx_facts t
  funext a; apply Fin.ext
  match a with
  | ⟨0, _⟩ => show win0_0.index t (0 : Fin 2) * 256 + 1 * p.val = p.val; omega
  | ⟨1, _⟩ => show win0_0.index t (1 : Fin 2) * 8704 + 1 * k.val = k.val; omega

/-- The weight table's window at point t is on column block t: column q of the block is column 128 t + q. -/
theorem w_emb (t : Fin cfg0.N) (k : Fin 8704) (q : Fin 128) (n : Fin 8320) (hn : n.val = t.val * 128 + q.val) :
    ((cfg0.win 1).blk t).view.emb (ix2 k q) = (ix2 k n : S8704x8320.Idx) := by
  obtain ⟨-, -, e2, e3, -, -⟩ := idx_facts t
  funext a; apply Fin.ext
  match a with
  | ⟨0, _⟩ => show win0_1.index t (0 : Fin 2) * 8704 + 1 * k.val = k.val; omega
  | ⟨1, _⟩ => show win0_1.index t (1 : Fin 2) * 128 + 1 * q.val = n.val; omega

/-- The output's window at point t is on column block t too. -/
theorem o_emb (t : Fin cfg0.N) (p : Fin 256) (q : Fin 128) (n : Fin 8320) (hn : n.val = t.val * 128 + q.val) :
    ((cfg0.win 2).blk t).view.emb (ix2 p q) = (ix2 p n : S256x8320.Idx) := by
  obtain ⟨-, -, -, -, e4, e5⟩ := idx_facts t
  funext a; apply Fin.ext
  match a with
  | ⟨0, _⟩ => show win0_2.index t (0 : Fin 2) * 256 + 1 * p.val = p.val; omega
  | ⟨1, _⟩ => show win0_2.index t (1 : Fin 2) * 128 + 1 * q.val = n.val; omega

/-! ## Reading an array through a window (any array: only the index map matters) -/

/-- Through the activations' window at any point, entry (p, k) of the block is entry (p, k) of the array. -/
theorem read0 (t : Fin cfg0.N) (X : FVec Ideal S256x8704 .f32) (p : Fin 256) (k : Fin 8704) :
    ((cfg0.win 0).blk t).view.read (Elt Ideal) X (ix2 p k) = X (ix2 p k) := by
  rw [View.read_apply]
  show X _ = X _
  exact congrArg X (x_emb t p k)

/-- Through the weight table's window at point t, entry (k, q) of the block is entry (k, 128 t + q) of the array. -/
theorem read1 (t : Fin cfg0.N) (X : FVec Ideal S8704x8320 .f32) (k : Fin 8704) (q : Fin 128) (n : Fin 8320) (hn : n.val = t.val * 128 + q.val) :
    ((cfg0.win 1).blk t).view.read (Elt Ideal) X (ix2 k q) = X (ix2 k n) := by
  rw [View.read_apply]
  show X _ = X _
  exact congrArg X (w_emb t k q n hn)

/-! ## One point's block of the activation array -/

/-- What a point stores at entry (p, q) of its block, when its two input blocks are read off arrays X and W: the
    activation function of X and W at (p, 128 t + q). -/
theorem block_entry (t : Fin cfg0.N) (X : FVec Ideal S256x8704 .f32) (W : FVec Ideal S8704x8320 .f32)
    (p : Fin 256) (q : Fin 128) (n : Fin 8320) (hn : n.val = t.val * 128 + q.val) :
    k0_pay1 (((cfg0.win 0).blk t).view.read (Elt Ideal) X) (((cfg0.win 1).blk t).view.read (Elt Ideal) W) (ix2 p q)
      = actOf X W (ix2 p n) := by
  refine (pay_apply (((cfg0.win 0).blk t).view.read (Elt Ideal) X) (((cfg0.win 1).blk t).view.read (Elt Ideal) W) p q).trans ?_
  show _ = Ideal.logistic (∑ k : Fin 8704, X (ix2 p k) * W (ix2 k n))
  refine congrArg Ideal.logistic (Finset.sum_congr rfl fun k _ => ?_)
  rw [read0 t X p k, read1 t W k q n hn]

/-- The two arrays the grid reads, at their literal types. -/
abbrev xarr (c : Dev nD) : FVec Ideal S256x8704 .f32 := V m c main_v0
abbrev warr (c : Dev nD) : FVec Ideal S8704x8320 .f32 := V m c main_v15

/-- The number of a point is below 65. -/
theorem point_lt (t : Fin cfg0.N) : t.val < 65 :=
  Nat.lt_of_lt_of_eq t.isLt (N_0 : cfg0.N = 65)

/-- WHAT POINT t WRITES BACK is its block of the activation array. -/
theorem flushed_eq (c : Dev nD) (t : Fin cfg0.N) :
    (dats m 0 c).flushed 2 t = ((cfg0.win 2).blk t).view.read (Elt Ideal) (actOf (xarr m c) (warr m c)) := by
  show (cfg0.win 2).cut (grid0.coords t) ((dats m 0 c).after 2 t) = _
  rw [after0_2]
  unfold out0_2
  rw [View.canon_unit_zero hz]
  simp only [View.ld_unit_zero (S := S256x8704) hz, View.ld_unit_zero (S := S8704x128) hz]
  funext j
  show k0_pay1 (iblk m c 0 t) (iblk m c 1 t) j = actOf (xarr m c) (warr m c) (((cfg0.win 2).blk t).view.emb j)
  have ht := point_lt t
  have hj1 : (j 1).val < 128 := (j 1).isLt
  have e1 : k0_pay1 (iblk m c 0 t) (iblk m c 1 t) j = k0_pay1 (iblk m c 0 t) (iblk m c 1 t) (ix2 (j 0) (j 1)) :=
    congrArg (k0_pay1 (iblk m c 0 t) (iblk m c 1 t)) (eq_ix2 j)
  have e2 : ((cfg0.win 2).blk t).view.emb j = (ix2 (j 0) ⟨t.val * 128 + (j 1).val, by omega⟩ : S256x8320.Idx) :=
    (congrArg ((cfg0.win 2).blk t).view.emb (eq_ix2 j)).trans (o_emb t (j 0) (j 1) ⟨t.val * 128 + (j 1).val, by omega⟩ rfl)
  rw [e2]
  exact e1.trans (block_entry t (xarr m c) (warr m c) (j 0) (j 1) ⟨t.val * 128 + (j 1).val, by omega⟩ rfl)

/-! ## The blocks tile the array -/

/-- An index of the activation array is in point t's block iff each coordinate is in the block's range on its axis. -/
theorem mem_blk (t : Fin cfg0.N) (i : S256x8320.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v16).slice (win0_2.rect t)).set ↔ _
  rw [View.set_slice_whole, Rect.mem_set_unit]
  exact Iff.rfl

/-- The 65 column blocks tile the activation array: column n is in block n / 128. -/
theorem cover (i : S256x8320.Idx) : ∃ t : Fin cfg0.N, (cfg0.win 2).flush t = true ∧ i ∈ ((cfg0.win 2).blk t).view.set := by
  have hi0 : (i 0).val < 256 := (i 0).isLt
  have hi1 : (i 1).val < 8320 := (i 1).isLt
  have hN : cfg0.N = 65 := N_0
  refine ⟨⟨(i 1).val / 128, by rw [hN]; omega⟩, flush0_2 _, ?_⟩
  rw [mem_blk]
  obtain ⟨-, -, -, -, e4, e5⟩ := idx_facts ⟨(i 1).val / 128, by rw [hN]; omega⟩
  intro a
  match a with
  | ⟨0, _⟩ =>
    show win0_2.index _ (0 : Fin 2) * 256 ≤ (i 0).val ∧ (i 0).val < win0_2.index _ (0 : Fin 2) * 256 + 256
    rw [e4]; omega
  | ⟨1, _⟩ =>
    show win0_2.index _ (1 : Fin 2) * 128 ≤ (i 1).val ∧ (i 1).val < win0_2.index _ (1 : Fin 2) * 128 + 128
    rw [e5]; show (i 1).val / 128 * 128 ≤ (i 1).val ∧ (i 1).val < (i 1).val / 128 * 128 + 128; omega

/-- THE ACTIVATION ARRAY after the grid. -/
theorem act_final (c : Dev nD) : (dats m 0 c).arrAt 2 cfg0.N = actOf (xarr m c) (warr m c) :=
  (dats m 0 c).arrAt_eq_of_cover 2 (actOf (xarr m c) (warr m c)) (fun t _ => flushed_eq m c t) cover

end Cert.KernelIdeal.Dense

end
-- ==== Proof.KernelTail.lean ====
/-
  The dense program's two results, read off the activation array.

  After the grid the program slices the activation array A: its first result is columns 0 .. 8191 of A, its
  second is twice columns 8192 .. 8255 of A less one. The grid leaves A holding the activation function of the two
  arrays it read, so both results are those expressions of that function.
-/
import proofs.«429889_j90486370993052_1_alg».proof.Proof.KernelBlocks

set_option maxRecDepth 16384

noncomputable section

namespace Cert.KernelIdeal.Dense

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two arrays the grid reads, as functions of the arguments. -/
theorem xarr_eq (c : Dev nD) :
    xarr m c = xOf (m ((c : Thread nD τ).loc main_arg0)) (m ((c : Thread nD τ).loc main_arg1)) := x_entry m c

theorem warr_eq (c : Dev nD) :
    warr m c = wtOf (m ((c : Thread nD τ).loc main_arg2)) (m ((c : Thread nD τ).loc main_arg3)) (m ((c : Thread nD τ).loc main_arg4)) :=
  w_entry m c

/-- What the activation array's buffer holds when the grid is left. -/
theorem act_buf (c : Dev nD) :
    Pipeline.withArrays (cfgs 0).spec c (V0 m c) (fun w => (dats m 0 c).arrAt w (cfgs 0).N) (Proc.devRef .tc main_v16)
      = actOf (xarr m c) (warr m c) :=
  (Pipeline.withArrays_arr spec0 launch0.win.arr_inj c _ _ 2).trans (act_final m c)

/-- The first result: the first 8192 columns of the activation array. -/
theorem res0_eq (c : Dev nD) :
    Pipeline.afterTail₀ cfgs (dats m) 0 (V0 m) [hostOps1] c main_v17
      = extractStridedSlice S256x8192 ![0, 0] (actOf (xarr m c) (warr m c)) slices_S256x8320_S256x8192_0_0 := by
  unfold Pipeline.afterTail₀
  show StableHlo.after hostOps1 _ (Proc.devRef .tc main_v17) = _
  after_results
  rw [act_buf m c]

/-- The second result: twice columns 8192 .. 8255 of the activation array, less one. -/
theorem res1_eq (c : Dev nD) :
    Pipeline.afterTail₀ cfgs (dats m) 0 (V0 m) [hostOps1] c main_v22
      = subf (mulf (extractStridedSlice S256x64 ![0, 8192] (actOf (xarr m c) (warr m c)) slices_S256x8320_S256x64_0_8192)
          (broadcastInDim S256x64 ![] bcast_S_S256x64 (constant (F := Ideal) S_ .f32 0x40000000#32)))
        (broadcastInDim S256x64 ![] bcast_S_S256x64 (constant (F := Ideal) S_ .f32 0x3F800000#32)) := by
  unfold Pipeline.afterTail₀
  show StableHlo.after hostOps1 _ (Proc.devRef .tc main_v22) = _
  after_results
  rw [act_buf m c]

end Cert.KernelIdeal.Dense

end
-- ==== Proof.KernelTable.lean ====
/-
  The weight table, cell by cell.

  The table starts as zeros, and value v e is added into the cell its pair of index words names: the column
  index cols e on the table's first axis (extent 8704), the row index rows e on its second (extent 8320), each
  word first moved up by its axis's extent when it is below 0, then read as a signed integer and not clamped.
  So cell (k, n) holds  0 + Σ_{e : the moved cols e is k and the moved rows e is n} v e.  A word that is at
  least 0 is not moved.
-/
import proofs.«429889_j90486370993052_1_alg».proof.Proof.KernelValue

noncomputable section

open scoped BigOperators

namespace Cert.KernelIdeal.Dense

open Cert.KernelIdeal Cert.KernelIdeal.Gen
open Idealize.ShloMosaic Idealize.ShloMosaic.ValueIdx Cert.LibRows

variable (rows cols : IVec S711064 32) (v : FVec Ideal S711064 .f32)

/-- An index word that is at least 0 is left where it is. -/
theorem wrapIdx_of_nonneg (n : BitVec 32) (x : IVec S711064 32) (e : Fin 711064) (h : 0 ≤ (x (ix1 e)).toInt) :
    wrapIdx n x (ix1 e) = x (ix1 e) := by
  have h0 : (0#32 : BitVec 32).toInt = 0 := by decide
  have hc : IntOp.cmpi .slt (x (ix1 e)) 0#32 = 0#1 := by
    have hne : ¬ IntOp.cmpi .slt (x (ix1 e)) 0#32 = 1#1 := fun hh => by
      have := IntOp.cmpi_slt.mp hh
      rw [h0] at this
      omega
    revert hne; generalize IntOp.cmpi .slt (x (ix1 e)) 0#32 = w; revert w; decide
  show Scalar.select (IntOp.cmpi .slt (x (ix1 e)) 0#32) (IntOp.addi (x (ix1 e)) n) (x (ix1 e)) = _
  rw [hc]; rfl

/-- The first word of value e's pair is its moved column index. -/
theorem idxPairs_col (e : Fin 711064) : idxPairs rows cols (ix2 e (0 : Fin 2)) = wrapIdx 8704#32 cols (ix1 e) := by
  unfold idxPairs
  rw [concatenate_pair_apply_left (t := S711064x2) (s₁ := S711064x1) (s₂ := S711064x1) (1 : Fin 2)
    (broadcastInDim S711064x1 ![0] bcast_S711064_S711064x1_0 (wrapIdx 8704#32 cols))
    (broadcastInDim S711064x1 ![0] bcast_S711064_S711064x1_0 (wrapIdx 8320#32 rows))
    concatenates_S711064x1_S711064x1_S711064x2_d1 (ix2 e (0 : Fin 2)) rfl (ix2 e (0 : Fin 1)) (fun b => match b with
    | ⟨0, _⟩ => rfl
    | ⟨1, _⟩ => rfl)]
  exact broadcastInDim_apply _ bcast_S711064_S711064x1_0 (wrapIdx 8704#32 cols) (ix2 e (0 : Fin 1)) (ix1 e) (fun a => match a with
    | ⟨0, _⟩ => by show e.val = if (711064 : Nat) = 1 then 0 else e.val; rw [if_neg (by decide)])

/-- The second word of value e's pair is its moved row index. -/
theorem idxPairs_row (e : Fin 711064) : idxPairs rows cols (ix2 e (1 : Fin 2)) = wrapIdx 8320#32 rows (ix1 e) := by
  unfold idxPairs
  rw [concatenate_pair_apply_right (t := S711064x2) (s₁ := S711064x1) (s₂ := S711064x1) (1 : Fin 2)
    (broadcastInDim S711064x1 ![0] bcast_S711064_S711064x1_0 (wrapIdx 8704#32 cols))
    (broadcastInDim S711064x1 ![0] bcast_S711064_S711064x1_0 (wrapIdx 8320#32 rows))
    concatenates_S711064x1_S711064x1_S711064x2_d1 (ix2 e (1 : Fin 2)) rfl rfl (ix2 e (0 : Fin 1)) (fun b hb => match b, hb with
    | ⟨0, _⟩, _ => rfl
    | ⟨1, _⟩, hb => absurd rfl hb) rfl]
  exact broadcastInDim_apply _ bcast_S711064_S711064x1_0 (wrapIdx 8320#32 rows) (ix2 e (0 : Fin 1)) (ix1 e) (fun a => match a with
    | ⟨0, _⟩ => by show e.val = if (711064 : Nat) = 1 then 0 else e.val; rw [if_neg (by decide)])

/-- The weight table at cell (k, n). -/
theorem wt_apply (k : Fin 8704) (n : Fin 8320) :
    wtOf rows cols v (ix2 k n)
      = Ideal.ofBits .f32 0x00000000#32
        + ∑ e ∈ Finset.univ.filter (fun e : Fin 711064 =>
            (wrapIdx 8704#32 cols (ix1 e)).toInt = (k.val : Int) ∧ (wrapIdx 8320#32 rows (ix1 e)).toInt = (n.val : Int)), v (ix1 e) := by
  unfold wtOf
  rw [scatterAdd_points' scatter_S8704x8320_S711064x2_S711064_n_01_01_1 rfl rfl rfl rfl _ _ _ k n]
  refine congrArg (fun s : EReal => Ideal.ofBits .f32 0x00000000#32 + s) ?_
  refine Finset.sum_congr (Finset.filter_congr fun e _ => ?_) fun e _ => rfl
  rw [idxPairs_col, idxPairs_row]

end Cert.KernelIdeal.Dense

end
-- ==== Proof.RefValue.lean ====
/-
  What the sparse program computes.

  It joins the two activation arrays side by side into x, 256 rows by 8704 columns, and never builds a weight
  table: for each value v e it takes row κ e of the transposed x, where κ e is the column index cols e, moved up
  by 8704 when below 0 and then clamped into 0 .. 8703, multiplies that row by v e, and adds the product rows
  whose row index rows e, read as a signed integer, is n into row n of a table of 8256 rows of zeros. Transposed
  back, entry (b, n) of the pre-activation is  0 + Σ_{e : rows e = n} v e · x (b, κ e),  and the activation is
  1 / (1 + exp (− that)), which is the logistic function.
-/
import proofs.«429889_j90486370993052_1_alg».proof.Proof.Gen.ReferenceIdeal.Read
import proofs.«429889_j90486370993052_1_alg».proof.Proof.LibScatterPoints
import Idealize.ShloMosaic.Lib.ValueIdx
import Idealize.ShloMosaic.Lib.IdealHost
import Idealize.ShloMosaic.PureOps.Ideal.Laws

noncomputable section

open scoped BigOperators

namespace Cert.ReferenceIdeal.Sparse

open Cert.ReferenceIdeal Cert.ReferenceIdeal.Gen Cert.ReferenceIdeal.Read
open Idealize.ShloMosaic Idealize.ShloMosaic.ValueIdx Cert.LibRows

variable (x0 : FVec Ideal S256x8192 .f32) (x1 : FVec Ideal S256x512 .f32) (x2 x3 : IVec S711064 32) (x4 : FVec Ideal S711064 .f32)

/-- The row of the transposed activations that value e reads: its wrapped column index, clamped. -/
def kappa (e : Fin 711064) : Fin 8704 :=
  ⟨min (val_main_v7 (F := Ideal) x3 (ix1 e)).toInt.toNat (8704 - 1), by omega⟩

/-- The wrapped column index of value e: moved up by 8704 when below 0. -/
theorem wrapped_apply (e : Fin 711064) :
    val_main_v7 (F := Ideal) x3 (ix1 e) = if (x3 (ix1 e)).toInt < 0 then x3 (ix1 e) + 8704#32 else x3 (ix1 e) := by
  have h0 : (0#32 : BitVec 32).toInt = 0 := by decide
  show Scalar.select (IntOp.cmpi .slt (x3 (ix1 e)) (val_main_v3 (F := Ideal) (ix1 e))) (IntOp.addi (x3 (ix1 e)) (val_main_v5 (F := Ideal) (ix1 e))) (x3 (ix1 e)) = _
  rw [val_main_v3_apply, val_main_c_apply, val_main_v5_apply, val_main_c_0_apply]
  by_cases h : (x3 (ix1 e)).toInt < 0
  · rw [if_pos h]
    have : IntOp.cmpi .slt (x3 (ix1 e)) 0#32 = 1#1 := IntOp.cmpi_slt.mpr (by rw [h0]; exact h)
    rw [this]; rfl
  · rw [if_neg h]
    have : IntOp.cmpi .slt (x3 (ix1 e)) 0#32 = 0#1 := by
      have hne : ¬ IntOp.cmpi .slt (x3 (ix1 e)) 0#32 = 1#1 := fun hh => h (by have := IntOp.cmpi_slt.mp hh; rwa [h0] at this)
      revert hne; generalize IntOp.cmpi .slt (x3 (ix1 e)) 0#32 = w; revert w; decide
    rw [this]; rfl

/-- The product row of value e at column b: v e times the activation x (b, κ e). -/
theorem contrib_apply (e : Fin 711064) (b : Fin 256) :
    val_main_v11 (F := Ideal) x0 x1 x3 x4 (ix2 e b) = x4 (ix1 e) * val_main_v0 (F := Ideal) x0 x1 (ix2 b (kappa x3 e)) := by
  rw [val_main_v11_apply, val_main_v10_apply, val_main_v1_apply]
  show x4 _ * val_main_v9 (F := Ideal) x0 x1 x3 (ix2 e b) = _
  unfold val_main_v9
  rw [gather_rows (by decide : 0 < 8704) gather_S8704x256_S711064x1_S711064x256_1_0_n_n_0_1_1256 rfl rfl rfl rfl rfl rfl _ _ e b,
    val_main_v2_apply]
  -- the index word the gather reads for value e is its wrapped column index
  have h8 : val_main_v8 (F := Ideal) x3 (ix2 e 0) = val_main_v7 (F := Ideal) x3 (ix1 e) := by
    rw [val_main_v8_apply]
    congr 1
    funext a
    match a with
    | ⟨0, _⟩ => rfl
  have hx : idx_main_v1 (idx_main_v10 (ix2 e b)) = ix1 e := by
    funext a
    match a with
    | ⟨0, _⟩ => rfl
  have hk : idx_main_v2 (ix2 (⟨min (val_main_v8 (F := Ideal) x3 (ix2 e 0)).toInt.toNat (8704 - 1), by omega⟩ : Fin 8704) b)
      = ix2 b (kappa x3 e) := by
    funext a
    apply Fin.ext
    match a with
    | ⟨0, _⟩ => rfl
    | ⟨1, _⟩ =>
      show min (val_main_v8 (F := Ideal) x3 (ix2 e 0)).toInt.toNat (8704 - 1) = min (val_main_v7 (F := Ideal) x3 (ix1 e)).toInt.toNat (8704 - 1)
      rw [h8]
  rw [hx, hk]

/-- The pre-activation at (b, n): zero plus the sum, over the values whose row index is n, of the value times
    the activation its column index names. -/
theorem z_apply (b : Fin 256) (n : Fin 8256) :
    val_main_v15 (F := Ideal) x0 x1 x2 x3 x4 (ix2 b n)
      = Ideal.ofBits .f32 0x00000000#32
        + ∑ e ∈ Finset.univ.filter (fun e : Fin 711064 => (x2 (ix1 e)).toInt = (n.val : Int)),
            x4 (ix1 e) * val_main_v0 (F := Ideal) x0 x1 (ix2 b (kappa x3 e)) := by
  rw [val_main_v15_apply]
  have hi : idx_main_v15 (ix2 b n) = ix2 n b := by
    funext a
    match a with
    | ⟨0, _⟩ => rfl
    | ⟨1, _⟩ => rfl
  rw [hi]
  unfold val_main_v14
  rw [scatterAdd_rows_int scatter_S8256x256_S711064x1_S711064x256_1_0_0_1 rfl rfl rfl rfl _ _ _ n b,
    val_main_v12_apply, val_main_cst_apply]
  refine congrArg (fun s : EReal => Ideal.ofBits .f32 0x00000000#32 + s) ?_
  refine Finset.sum_congr (Finset.filter_congr fun e _ => ?_) fun e _ => contrib_apply x0 x1 x3 x4 e b
  have hi13 : idx_main_v13 (ix2 e 0) = ix1 e := by
    funext a
    match a with
    | ⟨0, _⟩ => rfl
  rw [val_main_v13_apply, hi13]

/-- The activation at (b, n): the logistic function of the pre-activation. -/
theorem act_apply (b : Fin 256) (n : Fin 8256) :
    val_main_v21 (F := Ideal) x0 x1 x2 x3 x4 (ix2 b n) = Ideal.logistic (val_main_v15 (F := Ideal) x0 x1 x2 x3 x4 (ix2 b n)) := by
  rw [val_main_v21_apply, val_main_v20_apply, val_main_cst_2_apply, val_main_v19_apply, val_main_v18_apply, val_main_cst_1_apply,
    val_main_v17_apply, val_main_v16_apply]
  simp only [Ideal.hostDivf_def, Ideal.addf_def, Ideal.hostUnary_exp_def, Ideal.hostNegf_def, Ideal.negf_def, Ideal.ofBits_def,
    Ideal.ofBits_one_f32]
  rfl

end Cert.ReferenceIdeal.Sparse

end
-- ==== Proof.PreFacts.lean ====
/-
  What the precondition says, entry by entry.

  The precondition is a conjunction of six "for all entries" statements: the absolute value of every entry of
  the two activation arrays and of the value array is below +∞, every column index is at least 0 and below
  8704, and every row index is at least 0. An extended real whose absolute value is below +∞ is a real number;
  the three integer statements are comparisons of the index words read as signed integers.
-/
import proofs.«429889_j90486370993052_1_alg».proof.Pre_finite_inputs
import proofs.«429889_j90486370993052_1_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

instance : Subsingleton S_.Idx := ⟨fun a b => funext fun d => d.elim0⟩

/-- The pattern the precondition compares against is +∞. -/
theorem inf_word : Ideal.ofBits .f32 0x7F800000#32 = (⊤ : EReal) := by simp [Ideal.ofBits, Ideal.ieee]

/-- An extended real whose absolute value max x (-x) is below +∞ is a real number. -/
theorem real_of_abs_lt_top (x : EReal) (h : Ideal.cmp .olt (max x (-x)) (Ideal.ofBits .f32 0x7F800000#32) = 1#1) :
    ∃ r : ℝ, x = (r : EReal) := by
  rw [inf_word] at h
  unfold Ideal.cmp at h
  have h' : max x (-x) < ⊤ := by
    by_contra hn
    simp only [hn, decide_false] at h
    exact absurd h (by decide)
  induction x using EReal.rec with
  | bot => simp at h'
  | coe r => exact ⟨r, rfl⟩
  | top => simp at h'

/-- The precondition, decoded. -/
structure Good (a : FVec Ideal S256x8192 .f32) (s : FVec Ideal S256x512 .f32) (rows cols : IVec S711064 32)
    (v : FVec Ideal S711064 .f32) : Prop where
  a_real : ∀ i, ∃ r : ℝ, a i = (r : EReal)
  s_real : ∀ i, ∃ r : ℝ, s i = (r : EReal)
  v_real : ∀ i, ∃ r : ℝ, v i = (r : EReal)
  cols_nonneg : ∀ i, 0 ≤ (cols i).toInt
  cols_lt : ∀ i, (cols i).toInt < 8704
  rows_nonneg : ∀ i, 0 ≤ (rows i).toInt

theorem good_of_pre (a : FVec Ideal S256x8192 .f32) (s : FVec Ideal S256x512 .f32) (rows cols : IVec S711064 32)
    (v : FVec Ideal S711064 .f32) (h : fn (F := Ideal) a s rows cols v = fun _ => 1#1) : Good a s rows cols v := by
  have e := congrFun h ValueIdx.ix0
  unfold fn fn_part1 at e
  dsimp only at e
  simp only [andi, IntOp.andi_eq_one] at e
  obtain ⟨⟨⟨⟨⟨ha, hs⟩, hv⟩, hc0⟩, hc1⟩, hr0⟩ := e
  refine ⟨fun i => ?_, fun i => ?_, fun i => ?_, fun i => ?_, fun i => ?_, fun i => ?_⟩
  · exact real_of_abs_lt_top (a i) (Host.reduce_andi_all _ _ _ _ _ ha i)
  · exact real_of_abs_lt_top (s i) (Host.reduce_andi_all _ _ _ _ _ hs i)
  · exact real_of_abs_lt_top (v i) (Host.reduce_andi_all _ _ _ _ _ hv i)
  · have := Host.reduce_andi_all _ _ _ _ _ hc0 i
    have h' : IntOp.cmpi .sge (cols i) 0#32 = 1#1 := this
    exact IntOp.cmpi_sge.mp h'
  · have := Host.reduce_andi_all _ _ _ _ _ hc1 i
    have h' : IntOp.cmpi .slt (cols i) 8704#32 = 1#1 := this
    exact IntOp.cmpi_slt.mp h'
  · have := Host.reduce_andi_all _ _ _ _ _ hr0 i
    have h' : IntOp.cmpi .sge (rows i) 0#32 = 1#1 := this
    exact IntOp.cmpi_sge.mp h'

end Cert.PreFacts

end
-- ==== Proof.Algebra.lean ====
/-
  The one law that joins the two programs.

  A weight table is built by adding each of E values v e into the cell (κ e, ρ e) of a table, and a row vector x
  over the table's first axis is then contracted against one column of it:  Σ_k x k · (Σ_{e : κ e = k, P e} v e),
  where P e says that ρ e is that column. The other program never builds the table: it takes the products
  v e · x (κ e) and adds those with P e. Over the real numbers the two are one sum, by distributing x k over the
  inner sum and collecting, for each e, the single k with κ e = k. On the extended reals multiplication does
  not distribute over addition at the infinities, so the law is stated for entries that are real numbers.
-/
import Mathlib.Data.EReal.Basic
import Mathlib.Data.EReal.Operations
import Mathlib.Algebra.BigOperators.Ring.Finset
import Mathlib.Algebra.BigOperators.Group.Finset.Sigma

open scoped BigOperators

namespace Cert.SparseLaw

/-- A finite sum of real numbers, read in the extended reals, is the sum of its terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: contracting x against the scattered table is the sum of the gathered products. -/
theorem contract_scatter_real {K E : Type} [Fintype K] [Fintype E] [DecidableEq K] (x : K → ℝ) (v : E → ℝ) (κ : E → K)
    (P : E → Prop) [DecidablePred P] :
    ∑ k, x k * ∑ e ∈ Finset.univ.filter (fun e => κ e = k ∧ P e), v e
      = ∑ e ∈ Finset.univ.filter P, v e * x (κ e) := by
  -- split the right side by the value of κ, then on each fibre κ e is the fibre's k
  rw [← Finset.sum_fiberwise (Finset.univ.filter P) κ (fun e => v e * x (κ e))]
  refine Finset.sum_congr rfl fun k _ => ?_
  rw [Finset.mul_sum, Finset.filter_filter]
  refine Finset.sum_congr (Finset.filter_congr fun e _ => by tauto) fun e he => ?_
  have hk : κ e = k := (Finset.mem_filter.mp he).2.2
  rw [hk, mul_comm]

/-- The same on the extended reals, for real entries. -/
theorem contract_scatter {K E : Type} [Fintype K] [Fintype E] [DecidableEq K] (x : K → ℝ) (v : E → ℝ) (κ : E → K)
    (P : E → Prop) [DecidablePred P] :
    ∑ k, (x k : EReal) * ∑ e ∈ Finset.univ.filter (fun e => κ e = k ∧ P e), (v e : EReal)
      = ∑ e ∈ Finset.univ.filter P, (v e : EReal) * (x (κ e) : EReal) := by
  have hl : ∀ k, (x k : EReal) * ∑ e ∈ Finset.univ.filter (fun e => κ e = k ∧ P e), (v e : EReal)
      = ((x k * ∑ e ∈ Finset.univ.filter (fun e => κ e = k ∧ P e), v e : ℝ) : EReal) := fun k => by
    rw [EReal.coe_mul, coe_sum]
  have hr : ∀ e, (v e : EReal) * (x (κ e) : EReal) = ((v e * x (κ e) : ℝ) : EReal) := fun e => by rw [EReal.coe_mul]
  simp only [hl, hr]
  rw [← coe_sum, ← coe_sum, contract_scatter_real]

end Cert.SparseLaw
-- ==== Proof.Bridge.lean ====
/-
  The two programs compute one activation.

  Fix a batch row b and an output column n below 8256. The dense program's pre-activation is
  Σ_k x (b, k) · W (k, n) with W (k, n) = 0 + Σ_{e : cols e is k, rows e is n} v e; the sparse program's is
  0 + Σ_{e : rows e is n} v e · x (b, κ e) with κ e the column index clamped into 0 .. 8703. Under the
  precondition every column index is already in 0 .. 8703, so κ e IS cols e and no index is moved or clamped,
  every row index is at least 0, so none is moved, and every entry of x and v is a real number, so x (b, k) may
  be distributed over the inner sum. The two are then the same sum, and both programs apply the logistic function.
-/
import proofs.«429889_j90486370993052_1_alg».proof.Proof.KernelTable
import proofs.«429889_j90486370993052_1_alg».proof.Proof.RefValue
import proofs.«429889_j90486370993052_1_alg».proof.Proof.PreFacts
import proofs.«429889_j90486370993052_1_alg».proof.Proof.Algebra
import Idealize.ShloMosaic.Lib.Pipeline.Value

noncomputable section

open scoped BigOperators

namespace Cert.Bridge

open Idealize.ShloMosaic Idealize.ShloMosaic.ValueIdx
open Cert.KernelIdeal.Dense Cert.ReferenceIdeal.Sparse Cert.ReferenceIdeal.Read
open Cert.KernelIdeal (S256x8192 S256x512 S711064 S256x8704 S8704x8320)

variable (a : FVec Ideal S256x8192 .f32) (s : FVec Ideal S256x512 .f32) (rows cols : IVec S711064 32) (v : FVec Ideal S711064 .f32)
variable (hG : Cert.PreFacts.Good a s rows cols v)
include hG

/-- Every entry of the joined activations is a real number: it is an entry of one of the two arrays. -/
theorem x_real (i : S256x8704.Idx) : ∃ r : ℝ, xOf a s i = (r : EReal) := by
  unfold xOf
  by_cases h : (i 1).val < 8192
  · rw [concatenate_pair_apply_left (t := S256x8704) (s₁ := S256x8192) (s₂ := S256x512) (1 : Fin 2) a s
      Cert.KernelIdeal.Gen.concatenates_S256x8192_S256x512_S256x8704_d1 i rfl (ix2 (i 0) ⟨(i 1).val, h⟩) (fun b => match b with
      | ⟨0, _⟩ => rfl
      | ⟨1, _⟩ => rfl)]
    exact hG.a_real _
  · have h2 : (i 1).val < 8704 := (i 1).isLt
    rw [concatenate_pair_apply_right (t := S256x8704) (s₁ := S256x8192) (s₂ := S256x512) (1 : Fin 2) a s
      Cert.KernelIdeal.Gen.concatenates_S256x8192_S256x512_S256x8704_d1 i rfl rfl (ix2 (i 0) ⟨(i 1).val - 8192, by omega⟩) (fun b hb => match b, hb with
      | ⟨0, _⟩, _ => rfl
      | ⟨1, _⟩, hb => absurd rfl hb) (by show (i 1).val - 8192 + 8192 = (i 1).val; omega)]
    exact hG.s_real _

/-- Under the precondition the sparse program's clamped column index is the column word itself. -/
theorem kappa_val (e : Fin 711064) : ((kappa cols e).val : Int) = (cols (ix1 e)).toInt := by
  have h0 := hG.cols_nonneg (ix1 e)
  have h1 := hG.cols_lt (ix1 e)
  have hw : val_main_v7 (F := Ideal) cols (ix1 e) = cols (ix1 e) := by
    rw [wrapped_apply, if_neg (by omega)]
  show ((min (val_main_v7 (F := Ideal) cols (ix1 e)).toInt.toNat (8704 - 1) : Nat) : Int) = _
  rw [hw]
  omega

/-- THE ACTIVATIONS AGREE at row b and every column n below 8256 (n' is n as a column of the wider array). -/
theorem act_eq (b : Fin 256) (n : Fin 8256) (n' : Fin 8320) (hn : n'.val = n.val) :
    actOf (xOf a s) (wtOf rows cols v) (ix2 b n') = val_main_v21 (F := Ideal) a s rows cols v (ix2 b n) := by
  rw [act_apply, z_apply]
  show Ideal.logistic (∑ k : Fin 8704, xOf a s (ix2 b k) * wtOf rows cols v (ix2 k n')) = _
  refine congrArg Ideal.logistic ?_
  -- the real numbers behind the entries
  choose xr hxr using fun k : Fin 8704 => x_real a s rows cols v hG (ix2 b k)
  choose vr hvr using fun e : Fin 711064 => hG.v_real (ix1 e)
  have hx0 : val_main_v0 (F := Ideal) a s = xOf a s := rfl
  -- the dense program's weight cell, with no index moved and the column condition read through κ
  have hL : ∀ k : Fin 8704, wtOf rows cols v (ix2 k n')
      = ∑ e ∈ Finset.univ.filter (fun e : Fin 711064 => kappa cols e = k ∧ (rows (ix1 e)).toInt = (n.val : Int)), (vr e : EReal) := by
    intro k
    rw [wt_apply, Ideal.ofBits_zero_f32, zero_add]
    refine Finset.sum_congr (Finset.filter_congr fun e _ => ?_) fun e _ => hvr e
    rw [wrapIdx_of_nonneg _ _ _ (hG.cols_nonneg _), wrapIdx_of_nonneg _ _ _ (hG.rows_nonneg _), hn]
    have hk := kappa_val a s rows cols v hG e
    constructor
    · rintro ⟨h1, h2⟩
      exact ⟨Fin.ext (by omega), h2⟩
    · rintro ⟨h1, h2⟩
      exact ⟨by rw [← h1]; omega, h2⟩
  calc ∑ k : Fin 8704, xOf a s (ix2 b k) * wtOf rows cols v (ix2 k n')
      = ∑ k : Fin 8704, (xr k : EReal) * ∑ e ∈ Finset.univ.filter (fun e : Fin 711064 => kappa cols e = k ∧ (rows (ix1 e)).toInt = (n.val : Int)), (vr e : EReal) :=
        Finset.sum_congr rfl fun k _ => by rw [hxr k, hL k]
    _ = ∑ e ∈ Finset.univ.filter (fun e : Fin 711064 => (rows (ix1 e)).toInt = (n.val : Int)), (vr e : EReal) * (xr (kappa cols e) : EReal) :=
        Cert.SparseLaw.contract_scatter xr vr (kappa cols) (fun e => (rows (ix1 e)).toInt = (n.val : Int))
    _ = Ideal.ofBits .f32 0x00000000#32 + ∑ e ∈ Finset.univ.filter (fun e : Fin 711064 => (rows (ix1 e)).toInt = (n.val : Int)),
          v (ix1 e) * val_main_v0 (F := Ideal) a s (ix2 b (kappa cols e)) := by
        rw [Ideal.ofBits_zero_f32, zero_add]
        exact Finset.sum_congr rfl fun e _ => by rw [hvr e, hx0, hxr]

/-! ## The two results -/

/-- THE FIRST RESULT: the first 8192 columns of the dense program's activation array are the sparse program's
    first result. -/
theorem res0_fn :
    extractStridedSlice Cert.KernelIdeal.S256x8192 ![0, 0] (actOf (xOf a s) (wtOf rows cols v)) Cert.KernelIdeal.Gen.slices_S256x8320_S256x8192_0_0
      = val_main_v22 (F := Ideal) a s rows cols v := by
  funext i
  have h1 : (i 1).val < 8192 := (i 1).isLt
  rw [val_main_v22_apply,
    extractStridedSlice_apply ![0, 0] (actOf (xOf a s) (wtOf rows cols v)) Cert.KernelIdeal.Gen.slices_S256x8320_S256x8192_0_0 i
      (ix2 (i 0) ⟨(i 1).val, by omega⟩) (fun x => match x with
        | ⟨0, _⟩ => by show (i 0).val = 0 + (i 0).val; omega
        | ⟨1, _⟩ => by show (i 1).val = 0 + (i 1).val; omega)]
  have hi : idx_main_v22 i = ix2 (i 0) ⟨(i 1).val, by omega⟩ := by
    funext x
    match x with
    | ⟨0, _⟩ => rfl
    | ⟨1, _⟩ => rfl
  rw [hi]
  exact act_eq a s rows cols v hG (i 0) ⟨(i 1).val, by omega⟩ ⟨(i 1).val, by omega⟩ rfl

/-- Columns 8192 .. 8255 of the two activation arrays agree. -/
theorem mid_fn :
    extractStridedSlice Cert.KernelIdeal.S256x64 ![0, 8192] (actOf (xOf a s) (wtOf rows cols v)) Cert.KernelIdeal.Gen.slices_S256x8320_S256x64_0_8192
      = val_main_v23 (F := Ideal) a s rows cols v := by
  funext i
  have h1 : (i 1).val < 64 := (i 1).isLt
  rw [val_main_v23_apply,
    extractStridedSlice_apply ![0, 8192] (actOf (xOf a s) (wtOf rows cols v)) Cert.KernelIdeal.Gen.slices_S256x8320_S256x64_0_8192 i
      (ix2 (i 0) ⟨8192 + (i 1).val, by omega⟩) (fun x => match x with
        | ⟨0, _⟩ => by show (i 0).val = 0 + (i 0).val; omega
        | ⟨1, _⟩ => by show 8192 + (i 1).val = 8192 + (i 1).val; omega)]
  have hi : idx_main_v23 i = ix2 (i 0) ⟨8192 + (i 1).val, by omega⟩ := by
    funext x
    match x with
    | ⟨0, _⟩ => rfl
    | ⟨1, _⟩ => rfl
  rw [hi]
  exact act_eq a s rows cols v hG (i 0) ⟨8192 + (i 1).val, by omega⟩ ⟨8192 + (i 1).val, by omega⟩ rfl

/-- THE SECOND RESULT: twice those 64 columns less one, in both programs (the same two constants on both sides). -/
theorem res1_fn :
    subf (mulf (extractStridedSlice Cert.KernelIdeal.S256x64 ![0, 8192] (actOf (xOf a s) (wtOf rows cols v)) Cert.KernelIdeal.Gen.slices_S256x8320_S256x64_0_8192)
        (broadcastInDim Cert.KernelIdeal.S256x64 ![] Cert.KernelIdeal.Gen.bcast_S_S256x64 (constant (F := Ideal) Cert.KernelIdeal.S_ .f32 0x40000000#32)))
      (broadcastInDim Cert.KernelIdeal.S256x64 ![] Cert.KernelIdeal.Gen.bcast_S_S256x64 (constant (F := Ideal) Cert.KernelIdeal.S_ .f32 0x3F800000#32))
      = val_main_v27 (F := Ideal) a s rows cols v := by
  rw [mid_fn a s rows cols v hG]
  rfl

end Cert.Bridge

end
-- ==== Proof.lean ====
/-
  A dense and a sparse evaluation of one layer are the same function.

  Both programs are given two activation arrays a (256 by 8192) and s (256 by 512), joined side by side into x
  (256 by 8704), and a weight matrix in coordinate form: 711064 values v e with a row index rows e and a column
  index cols e. Both compute, for a batch row b and an output column n below 8256, the pre-activation
      z (b, n) = Σ_{e : rows e = n} v e · x (b, cols e)
  and its logistic 1 / (1 + exp (−z)); the first result is the activation's first 8192 columns and the second is
  twice its remaining 64 columns less one.

  The dense program first adds every v e into cell (cols e, rows e) of a table W of zeros, 8704 by 8320 (the row
  axis padded past 8256), and then, on a grid of 65 points, multiplies x by 128 columns of W at a time and applies
  the logistic function: z (b, n) = Σ_k x (b, k) · W (k, n). The sparse program gathers row cols e of the transposed
  x for every e, scales it by v e and adds the scaled rows with row index n. Distributing x (b, k) over the sum that
  defines W (k, n), and collecting for each e the one k that is cols e, turns the first into the second; that needs
  the entries to be real numbers, which the precondition's finiteness gives.

  The two programs treat an index outside its axis differently (the dense table drops the value, or moves a negative
  index up by the padded extent 8320; the sparse gather clamps a column index into range, and its sum over rows
  drops a negative row index), so the claim is stated for column indices in 0 .. 8703 and row indices at least 0,
  the ranges of the arrays the sparse program indexes. A row index from 8256 up needs no bound: the dense program
  puts it in a padded column nobody reads, or drops it, and the sparse program drops it.

  The frames of the two kernel programs are the generated ones; the reference's frame is its generated run with the
  results forgotten. The idealization rewrote nothing, so the preservation claim is trivial.
-/
import proofs.«429889_j90486370993052_1_alg».proof.Defs
import proofs.«429889_j90486370993052_1_alg».proof.Proof.Gen.Kernel
import proofs.«429889_j90486370993052_1_alg».proof.Proof.Gen.Kernel.Frame
import proofs.«429889_j90486370993052_1_alg».proof.Proof.Gen.KernelIdeal
import proofs.«429889_j90486370993052_1_alg».proof.Proof.Gen.KernelIdeal.Frame
import proofs.«429889_j90486370993052_1_alg».proof.Proof.Gen.ReferenceIdeal
import proofs.«429889_j90486370993052_1_alg».proof.Proof.Gen.ReferenceIdeal.Run
import proofs.«429889_j90486370993052_1_alg».proof.Proof.Gen.ReferenceIdeal.Read
import proofs.«429889_j90486370993052_1_alg».proof.Proof.Gen.Pre_finite_inputs
import proofs.«429889_j90486370993052_1_alg».proof.Proof.KernelTail
import proofs.«429889_j90486370993052_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs run, and end with the same two results: the sparse
    program's two result terms of the arguments, which the dense program's results equal under the precondition. -/
theorem algebraic : Cert.algebraic_KernelIdeal_ReferenceIdeal := by
  intro m ρ m' ρ' hpre hagree
  -- the precondition, decoded on each device
  have hG : ∀ c : Dev Cert.KernelIdeal.nD, Cert.PreFacts.Good
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) :=
    fun c => Cert.PreFacts.good_of_pre _ _ _ _ _ (hpre c)
  refine ⟨fun c => Cert.ReferenceIdeal.Read.val_main_v22 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.ReferenceIdeal.Read.val_main_v27 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the dense program: the generated frame run, its two results read off the activation array
    refine (θ_run Cert.KernelIdeal.defs _ _).mono (fun r h c => ?_) (Cert.KernelIdeal.Gen.run_main m ρ)
    have hr := (h c).2
    refine ⟨?_, ?_,
      (hr Cert.KernelIdeal.main_arg0 (Pipeline.mem_restRefs_of _ (by decide) (by decide))).trans (Cert.KernelIdeal.Gen.W_main_arg0 m (Cert.KernelIdeal.Gen.dats m) c),
      (hr Cert.KernelIdeal.main_arg1 (Pipeline.mem_restRefs_of _ (by decide) (by decide))).trans (Cert.KernelIdeal.Gen.W_main_arg1 m (Cert.KernelIdeal.Gen.dats m) c),
      (hr Cert.KernelIdeal.main_arg2 (Pipeline.mem_restRefs_of _ (by decide) (by decide))).trans (Cert.KernelIdeal.Gen.W_main_arg2 m (Cert.KernelIdeal.Gen.dats m) c),
      (hr Cert.KernelIdeal.main_arg3 (Pipeline.mem_restRefs_of _ (by decide) (by decide))).trans (Cert.KernelIdeal.Gen.W_main_arg3 m (Cert.KernelIdeal.Gen.dats m) c),
      (hr Cert.KernelIdeal.main_arg4 (Pipeline.mem_restRefs_of _ (by decide) (by decide))).trans (Cert.KernelIdeal.Gen.W_main_arg4 m (Cert.KernelIdeal.Gen.dats m) c)⟩
    · refine (hr Cert.KernelIdeal.main_v17 (Pipeline.mem_restRefs_of _ (by decide) (by decide))).trans ?_
      rw [Cert.KernelIdeal.Dense.res0_eq m c, Cert.KernelIdeal.Dense.xarr_eq m c, Cert.KernelIdeal.Dense.warr_eq m c]
      exact Cert.Bridge.res0_fn _ _ _ _ _ (hG c)
    · refine (hr Cert.KernelIdeal.main_v22 (Pipeline.mem_restRefs_of _ (by decide) (by decide))).trans ?_
      rw [Cert.KernelIdeal.Dense.res1_eq m c, Cert.KernelIdeal.Dense.xarr_eq m c, Cert.KernelIdeal.Dense.warr_eq m c]
      exact Cert.Bridge.res1_fn _ _ _ _ _ (hG c)
  · -- the sparse program: its generated run, the arguments rewritten to the dense program's
    refine (θ_run Cert.ReferenceIdeal.defs _ _).mono (fun r h c => ?_) (Cert.ReferenceIdeal.Value.run (F := Ideal) m' ρ')
    obtain ⟨h0, h1, k0, k1, k2, k3, k4⟩ := h c
    obtain ⟨a0, a1, a2, a3, a4⟩ := hagree c
    refine ⟨?_, ?_, k0, k1, k2, k3, k4⟩
    · rw [h0, Cert.ReferenceIdeal.Read.val_main_v22_eq, a0, a1, a2, a3, a4]
    · rw [h1, Cert.ReferenceIdeal.Read.val_main_v27_eq, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
